-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048x32 : Shape := ⟨3, ![512, 2048, 32]⟩
abbrev S512x2048 : Shape := ⟨2, ![512, 2048]⟩
abbrev S32x32 : Shape := ⟨2, ![32, 32]⟩
abbrev S_ : Shape := ⟨0, ![]⟩

class Facts : Prop where
  bcast_S_S512x2048x32 : S_.BroadcastsInDim S512x2048x32 (![] : Fin 0 → Fin S512x2048x32.rank)
  reducesTo_S512x2048x32_S_d0_1_2 : S512x2048x32.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S512x2048x32 .f32) (main_arg1 : IVec S512x2048 32) (main_arg2 : FVec F S512x2048 .f32) (main_arg3 : FVec F S32x32 .f32) : IVec S_ 1 :=
  let main_v0 : FVec F S512x2048x32 .f32 := Host.absf main_arg0
  let main_cst : FVec F S_ .f32 := constant S_ .f32 0x7F800000#32
  let main_v1 : FVec F S512x2048x32 .f32 := broadcastInDim S512x2048x32 ![] bcast_S_S512x2048x32 main_cst
  let main_v2 : IVec S512x2048x32 1 := cmpf .olt main_v0 main_v1
  let main_c : IVec S_ 1 := constantI S_ 1 1#1
  let main_v3 : IVec S_ 1 := (fun x v => Host.reduce IntOp.andi x v reducesTo_S512x2048x32_S_d0_1_2 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S32x32 .f32 := Host.absf main_arg3
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S512x2048x32 : Shape := ⟨3, ![512, 2048, 32]⟩
abbrev S512x2048 : Shape := ⟨2, ![512, 2048]⟩
abbrev S32x32 : Shape := ⟨2, ![32, 32]⟩
abbrev S512x1 : Shape := ⟨2, ![512, 1]⟩
abbrev S512 : Shape := ⟨1, ![512]⟩
abbrev S_ : Shape := ⟨0, ![]⟩
abbrev S512x32 : Shape := ⟨2, ![512, 32]⟩
abbrev S512x2047 : Shape := ⟨2, ![512, 2047]⟩
abbrev S512x2047x1 : Shape := ⟨3, ![512, 2047, 1]⟩
abbrev S512x2047x2 : Shape := ⟨3, ![512, 2047, 2]⟩
abbrev S1 : Shape := ⟨1, ![1]⟩
abbrev S1x1 : Shape := ⟨2, ![1, 1]⟩
abbrev S16x2048x32 : Shape := ⟨3, ![16, 2048, 32]⟩
abbrev S16x2048 : Shape := ⟨2, ![16, 2048]⟩
abbrev S16 : Shape := ⟨1, ![16]⟩
abbrev S16x1 : Shape := ⟨2, ![16, 1]⟩

abbrev nBuf : Space → Nat
  | .hbm => 52
  | .vmem => 5
  | .smem => 0
  | _ => 0

abbrev bufTy : (tb : Table) → Fin (tcTables nBuf tb) → BufTy
  | .hbm, ⟨0, _⟩ => ⟨S512x2048x32, .f32⟩
  | .hbm, ⟨1, _⟩ => ⟨S512x2048, .i32⟩
  | .hbm, ⟨2, _⟩ => ⟨S512x2048, .f32⟩
  | .hbm, ⟨3, _⟩ => ⟨S32x32, .f32⟩
  | .hbm, ⟨4, _⟩ => ⟨S512x1, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x32, .f32⟩
  | .hbm, ⟨15, _⟩ => ⟨S_, .f32⟩
  | .hbm, ⟨16, _⟩ => ⟨S_, .f32⟩
  | .hbm, ⟨17, _⟩ => ⟨S512x2047, .i32⟩
  | .hbm, ⟨18, _⟩ => ⟨S512x2047, .i32⟩
  | .hbm, ⟨19, _⟩ => ⟨S_, .i32⟩
  | .hbm, ⟨20, _⟩ => ⟨S512x2047, .i32⟩
  | .hbm, ⟨21, _⟩ => ⟨S512x2047, .i1⟩
  | .hbm, ⟨22, _⟩ => ⟨S_, .i32⟩
  | .hbm, ⟨23, _⟩ => ⟨S512x2047, .i32⟩
  | .hbm, ⟨24, _⟩ => ⟨S512x2047, .i32⟩
  | .hbm, ⟨25, _⟩ => ⟨S512x2047, .i32⟩
  | .hbm, ⟨26, _⟩ => ⟨S_, .i32⟩
  | .hbm, ⟨27, _⟩ => ⟨S512x2047, .i32⟩
  | .hbm, ⟨28, _⟩ => ⟨S512x2047, .i1⟩
  | .hbm, ⟨29, _⟩ => ⟨S_, .i32⟩
  | .hbm, ⟨30, _⟩ => ⟨S512x2047, .i32⟩
  | .hbm, ⟨31, _⟩ => ⟨S512x2047, .i32⟩
  | .hbm, ⟨32, _⟩ => ⟨S512x2047, .i32⟩
  | .hbm, ⟨33, _⟩ => ⟨S512x2047x1, .i32⟩
  | .hbm, ⟨34, _⟩ => ⟨S512x2047x1, .i32⟩
  | .hbm, ⟨35, _⟩ => ⟨S512x2047x2, .i32⟩
  | .hbm, ⟨36, _⟩ => ⟨S512x2047, .f32⟩
  | .hbm, ⟨37, _⟩ => ⟨S512x2047, .f32⟩
  | .hbm, ⟨38, _⟩ => ⟨S512x2047, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .i32⟩
  | .hbm, ⟨44, _⟩ => ⟨S1, .i32⟩
  | .hbm, ⟨45, _⟩ => ⟨S_, .f32⟩
  | .hbm, ⟨46, _⟩ => ⟨S512, .f32⟩
  | .hbm, ⟨47, _⟩ => ⟨S512x2048, .f32⟩
  | .hbm, ⟨48, _⟩ => ⟨S1x1, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S16x2048x32, .f32⟩
  | .local _ .vmem, ⟨1, _⟩ => ⟨S16x2048x32, .f32⟩
  | .local _ .vmem, ⟨2, _⟩ => ⟨S16x2048, .f32⟩
  | .local _ .vmem, ⟨3, _⟩ => ⟨S16x2048, .f32⟩
  | .local _ .vmem, ⟨4, _⟩ => ⟨S1x1, .f32⟩
  | _, _ => ⟨S512x2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S512x2048_S512x1_0_0 : S512x2048.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  reducesTo_S512x32_S_d0_1 : S512x32.ReducesTo [0, 1] S_
  h_S_ : 0 < S_.numel
  slices_S512x2048_S512x2047_0_0 : S512x2048.Slices ![0, 0] S512x2047
  slices_S512x2048_S512x2047_0_1 : S512x2048.Slices ![0, 1] S512x2047
  bcast_S_S512x2047 : S_.BroadcastsInDim S512x2047 (![] : Fin 0 → Fin S512x2047.rank)
  bcast_S512x2047_S512x2047x1_0_1 : S512x2047.BroadcastsInDim S512x2047x1 (![0, 1] : Fin 2 → Fin S512x2047x1.rank)
  concatenates_S512x2047x1_S512x2047x1_S512x2047x2_d2 : Shape.Concatenates [S512x2047x1, S512x2047x1] S512x2047x2 2
  reducesTo_S512x2047_S_d0_1 : S512x2047.ReducesTo [0, 1] S_
  bcast_S_S1 : S_.BroadcastsInDim S1 (![] : Fin 0 → Fin S1.rank)
  inb_S1x1_S1x1_0_0 : ∀ a, (![0, 0] : Fin 2 → Nat) a + S1x1.size a ≤ S1x1.size a
  h_S1x1 : 0 < S1x1.numel
  inb_S16x2048x32_S16x2048x32_0_0_0 : ∀ a, (![0, 0, 0] : Fin 3 → Nat) a + S16x2048x32.size a ≤ S16x2048x32.size a
  h_S16x2048x32 : 0 < S16x2048x32.numel
  reduces_S16x2048x32_S16x2048 : S16x2048x32.Reduces [2] S16x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  reduces_S16x2048_S16 : S16x2048.Reduces [1] S16
  shapeCasts_S16_S16x1 : S16.ShapeCasts S16x1
  reduces_S16x1_S1 : S16x1.Reduces [0] S1
  shapeCasts_S1_S1x1 : S1.ShapeCasts S1x1
  shapeCasts_S1x1_S1x1 : S1x1.ShapeCasts S1x1
  shapeCasts_S1x1_S_ : S1x1.ShapeCasts S_
  gather_S32x32_S512x1_S512x32_1_0_n_n_0_1_132_wf : GatherDims.WF S32x32 S512x1 S512x32 [1] [0] [] [0] [] 1 ![1, 32]
  gather_S32x32_S512x2047x2_S512x2047_n_01_n_n_01_2_11_wf : GatherDims.WF S32x32 S512x2047x2 S512x2047 [] [0, 1] [] [0, 1] [] 2 ![1, 1]
  scatter_S512x2048_S1_S512_0_1_1_0_wf : ScatterDims.WF S512x2048 S1 S512 [0] [1] [1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x2048x32.size a ≤ S512x2048x32.size a
  hwx0_0 : ∀ i : grid0.Coords, EltTy.bits .f32 = 32 ∨ (Rect.block (s := S512x2048x32) S16x2048x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S512x2048.size a
  hwx0_1 : ∀ i : grid0.Coords, EltTy.bits .f32 = 32 ∨ (Rect.block (s := S512x2048) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def gather_S32x32_S512x1_S512x32_1_0_n_n_0_1_132 : GatherDims S32x32 S512x1 S512x32 where
  offsetDims := [1]
  collapsedSliceDims := [0]
  operandBatchingDims := []
  startIndicesBatchingDims := []
  startIndexMap := [0]
  indexVectorDim := 1
  sliceSizes := ![1, 32]
  wf := gather_S32x32_S512x1_S512x32_1_0_n_n_0_1_132_wf
def gather_S32x32_S512x2047x2_S512x2047_n_01_n_n_01_2_11 : GatherDims S32x32 S512x2047x2 S512x2047 where
  offsetDims := []
  collapsedSliceDims := [0, 1]
  operandBatchingDims := []
  startIndicesBatchingDims := []
  startIndexMap := [0, 1]
  indexVectorDim := 2
  sliceSizes := ![1, 1]
  wf := gather_S32x32_S512x2047x2_S512x2047_n_01_n_n_01_2_11_wf
def scatter_S512x2048_S1_S512_0_1_1_0 : ScatterDims S512x2048 S1 S512 where
  updateWindowDims := [0]
  insertedWindowDims := [1]
  scatterDimsToOperandDims := [1]
  indexVectorDim := 0
  wf := scatter_S512x2048_S1_S512_0_1_1_0_wf

abbrev win0_0 : Pipeline.Window sig grid0 :=
  Pipeline.Window.ofSpec (Memref.whole main_arg0) S16x2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x2048x32 : Shape := ⟨3, ![512, 2048, 32]⟩
abbrev S512x2048 : Shape := ⟨2, ![512, 2048]⟩
abbrev S32x32 : Shape := ⟨2, ![32, 32]⟩
abbrev S512x1 : Shape := ⟨2, ![512, 1]⟩
abbrev S512 : Shape := ⟨1, ![512]⟩
abbrev S_ : Shape := ⟨0, ![]⟩
abbrev S512x32 : Shape := ⟨2, ![512, 32]⟩
abbrev S512x1x32 : Shape := ⟨3, ![512, 1, 32]⟩
abbrev S512x2047 : Shape := ⟨2, ![512, 2047]⟩
abbrev S512x2047x1 : Shape := ⟨3, ![512, 2047, 1]⟩
abbrev S512x2047x2 : Shape := ⟨3, ![512, 2047, 2]⟩
abbrev S512x2047x32 : Shape := ⟨3, ![512, 2047, 32]⟩

abbrev nBuf : Space → Nat
  | .hbm => 55
  | .vmem => 0
  | .smem => 0
  | _ => 0

abbrev bufTy : (tb : Table) → Fin (tcTables nBuf tb) → BufTy
  | .hbm, ⟨0, _⟩ => ⟨S512x2048x32, .f32⟩
  | .hbm, ⟨1, _⟩ => ⟨S512x2048, .i32⟩
  | .hbm, ⟨2, _⟩ => ⟨S512x2048, .f32⟩
  | .hbm, ⟨3, _⟩ => ⟨S32x32, .f32⟩
  | .hbm, ⟨4, _⟩ => ⟨S512x1, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S512x32, .f32⟩
  | .hbm, ⟨15, _⟩ => ⟨S512x1x32, .f32⟩
  | .hbm, ⟨16, _⟩ => ⟨S512x32, .f32⟩
  | .hbm, ⟨17, _⟩ => ⟨S512x32, .f32⟩
  | .hbm, ⟨18, _⟩ => ⟨S512x2047, .i32⟩
  | .hbm, ⟨19, _⟩ => ⟨S512x2047, .i32⟩
  | .hbm, ⟨20, _⟩ => ⟨S_, .i32⟩
  | .hbm, ⟨21, _⟩ => ⟨S512x2047, .i32⟩
  | .hbm, ⟨22, _⟩ => ⟨S512x2047, .i1⟩
  | .hbm, ⟨23, _⟩ => ⟨S_, .i32⟩
  | .hbm, ⟨24, _⟩ => ⟨S512x2047, .i32⟩
  | .hbm, ⟨25, _⟩ => ⟨S512x2047, .i32⟩
  | .hbm, ⟨26, _⟩ => ⟨S512x2047, .i32⟩
  | .hbm, ⟨27, _⟩ => ⟨S_, .i32⟩
  | .hbm, ⟨28, _⟩ => ⟨S512x2047, .i32⟩
  | .hbm, ⟨29, _⟩ => ⟨S512x2047, .i1⟩
  | .hbm, ⟨30, _⟩ => ⟨S_, .i32⟩
  | .hbm, ⟨31, _⟩ => ⟨S512x2047, .i32⟩
  | .hbm, ⟨32, _⟩ => ⟨S512x2047, .i32⟩
  | .hbm, ⟨33, _⟩ => ⟨S512x2047, .i32⟩
  | .hbm, ⟨34, _⟩ => ⟨S512x2047x1, .i32⟩
  | .hbm, ⟨35, _⟩ => ⟨S512x2047x1, .i32⟩
  | .hbm, ⟨36, _⟩ => ⟨S512x2047x2, .i32⟩
  | .hbm, ⟨37, _⟩ => ⟨S512x2047, .f32⟩
  | .hbm, ⟨38, _⟩ => ⟨S512x2047, .f32⟩
  | .hbm, ⟨39, _⟩ => ⟨S512x2047, .f32⟩
  | .hbm, ⟨40, _⟩ => ⟨S512x2047x32, .f32⟩
  | .hbm, ⟨41, _⟩ => ⟨S512x2047, .f32⟩
  | .hbm, ⟨42, _⟩ => ⟨S512x2047x1, .f32⟩
  | .hbm, ⟨43, _⟩ => ⟨S512x2047x32, .f32⟩
  | .hbm, ⟨44, _⟩ => ⟨S512x2047x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  slices_S512x2048_S512x1_0_0 : S512x2048.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  slices_S512x2048x32_S512x1x32_0_0_0 : S512x2048x32.Slices ![0, 0, 0] S512x1x32
  shapeCasts_S512x1x32_S512x32 : S512x1x32.ShapeCasts S512x32
  slices_S512x2048_S512x2047_0_0 : S512x2048.Slices ![0, 0] S512x2047
  slices_S512x2048_S512x2047_0_1 : S512x2048.Slices ![0, 1] S512x2047
  bcast_S_S512x2047 : S_.BroadcastsInDim S512x2047 (![] : Fin 0 → Fin S512x2047.rank)
  bcast_S512x2047_S512x2047x1_0_1 : S512x2047.BroadcastsInDim S512x2047x1 (![0, 1] : Fin 2 → Fin S512x2047x1.rank)
  concatenates_S512x2047x1_S512x2047x1_S512x2047x2_d2 : Shape.Concatenates [S512x2047x1, S512x2047x1] S512x2047x2 2
  slices_S512x2048x32_S512x2047x32_0_1_0 : S512x2048x32.Slices ![0, 1, 0] S512x2047x32
  bcast_S512x2047x1_S512x2047x32_0_1_2 : S512x2047x1.BroadcastsInDim S512x2047x32 (![0, 1, 2] : Fin 3 → Fin S512x2047x32.rank)
  reducesTo_S512x32_S_d0_1 : S512x32.ReducesTo [0, 1] S_
  h_S_ : 0 < S_.numel
  reducesTo_S512x2047_S_d0_1 : S512x2047.ReducesTo [0, 1] S_
  reducesTo_S512x2047x32_S_d0_1_2 : S512x2047x32.ReducesTo [0, 1, 2] S_
  gather_S32x32_S512x1_S512x32_1_0_n_n_0_1_132_wf : GatherDims.WF S32x32 S512x1 S512x32 [1] [0] [] [0] [] 1 ![1, 32]
  gather_S32x32_S512x2047x2_S512x2047_n_01_n_n_01_2_11_wf : GatherDims.WF S32x32 S512x2047x2 S512x2047 [] [0, 1] [] [0, 1] [] 2 ![1, 1]

variable [Facts₀]

def gather_S32x32_S512x1_S512x32_1_0_n_n_0_1_132 : GatherDims S32x32 S512x1 S512x32 where
  offsetDims := [1]
  collapsedSliceDims := [0]
  operandBatchingDims := []
  startIndicesBatchingDims := []
  startIndexMap := [0]
  indexVectorDim := 1
  sliceSizes := ![1, 32]
  wf := gather_S32x32_S512x1_S512x32_1_0_n_n_0_1_132_wf
def gather_S32x32_S512x2047x2_S512x2047_n_01_n_n_01_2_11 : GatherDims S32x32 S512x2047x2 S512x2047 where
  offsetDims := []
  collapsedSliceDims := [0, 1]
  operandBatchingDims := []
  startIndicesBatchingDims := []
  startIndexMap := [0, 1]
  indexVectorDim := 2
  sliceSizes := ![1, 1]
  wf := gather_S32x32_S512x2047x2_S512x2047_n_01_n_n_01_2_11_wf

class Facts : Prop extends Facts₀ where

variable [Facts]
-- ==== Proof.RunningTotal.lean ====
/-
  The kernel's run, read as values (at any float instance).

  The kernel visits 32 tiles of 16 batch rows. At each tile it computes ONE number from the tile's block of emission
  scores and the tile's block of weights (`k0_pay2`: sum the tags, multiply by the weight, sum the positions, sum the
  rows) and adds it to a 1x1 total that stays in place across the tiles: the first tile starts from the zero it has
  just stored, every later tile from what the tile before left. So after tile `n` the 1x1 buffer holds the running
  total `total n`; the only write-back is after tile 31, whose block is the whole 1x1 result array. The three host
  operations after the kernel reshape that array to a scalar and add it to the two transition sums the host computed
  before the kernel.
-/
import proofs.«117368_j14379550507279_1_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Total

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- A tile that is not the first: the one store writes the tile's number added to the total found in the buffer. -/
theorem later_point (c : Dev nD) (i : grid0.Coords) (a1 : Memref sig .tc .vmem S16x2048x32 .f32) (h1 : a1.IsWhole)
    (a2 : Memref sig .tc .vmem S16x2048 .f32) (h2 : a2.IsWhole) (a3 : Memref sig .tc .vmem S1x1 .f32) (h3 : a3.IsWhole)
    (hc : ¬cond0_0 i) (x0 : Vec F S16x2048x32 .f32) (x1 : Vec F S16x2048 .f32) (xo : Vec F S1x1 .f32) :
    out0_B_2 c i a1 h1 a2 h2 a3 h3 hc x0 x1 xo = k0_pay2 x0 x1 xo := by
  unfold out0_B_2
  rw [View.read_writes_eq_canon _ _ _ (cover0_B_2 c i a1 h1 a2 h2 a3 h3 hc x0 x1 xo)]
  unfold kernelRun0_B
  dsimp only
  rw [View.canon_unit_zero zero2]
  simp only [View.readAt_eq_ld, h1.read_unread, h2.read_unread, h3.read_unread, View.ld_unit_zero (S := S16x2048x32) zero3,
    View.ld_unit_zero (S := S16x2048) zero2, View.ld_unit_zero (S := S1x1) zero2]

/-- The first tile: the zero is stored, read back, and the tile's number added to it. -/
theorem first_point (c : Dev nD) (i : grid0.Coords) (a1 : Memref sig .tc .vmem S16x2048x32 .f32) (h1 : a1.IsWhole)
    (a2 : Memref sig .tc .vmem S16x2048 .f32) (h2 : a2.IsWhole) (a3 : Memref sig .tc .vmem S1x1 .f32) (h3 : a3.IsWhole)
    (hc : cond0_0 i) (x0 : Vec F S16x2048x32 .f32) (x1 : Vec F S16x2048 .f32) :
    out0_A_2 c i a1 h1 a2 h2 a3 h3 hc x0 x1 = k0_pay2 x0 x1 (k0_pay1 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) zero2, View.readCov_unit_zero (S := S1x1) _ zero2]
  simp only [View.readAt_eq_ld, h1.read_unread, h2.read_unread, View.ld_unit_zero (S := S16x2048x32) zero3,
    View.ld_unit_zero (S := S16x2048) zero2, View.ld_unit_zero (S := S1x1) zero2]

variable (m : (ℓ : Loc nD τ sig) → Buf (Elt F) ℓ) (ρ : Dev nD → PrngReg)

/-- Tile `t`'s block of emission scores and its block of weights, at their literal types. -/
abbrev scores (c : Dev nD) (t : Fin cfg0.N) : Vec F S16x2048x32 .f32 := iblk m c 0 t
abbrev weights (c : Dev nD) (t : Fin cfg0.N) : Vec F S16x2048 .f32 := iblk m c 1 t

/-- The running total after tile `n`. -/
def total (c : Dev nD) : (n : ℕ) → n < cfg0.N → Vec F S1x1 .f32
  | 0, h => k0_pay2 (scores m c ⟨0, h⟩) (weights m c ⟨0, h⟩) (k0_pay1 (F := F))
  | n + 1, h => k0_pay2 (scores m c ⟨n + 1, h⟩) (weights m c ⟨n + 1, h⟩) (total c n (Nat.lt_of_succ_lt h))

/-- What the 1x1 staging buffer holds after tile `n` is the running total: by induction on the tile. -/
theorem outsAt_eq_total (c : Dev nD) : ∀ (n : ℕ) (h : n < cfg0.N), outsAt0 m c n h = total m c n h
  | 0, h => (outsAt0_A m c ⟨0, h⟩ rfl).trans (first_point c _ _ _ _ _ _ _ _ _ _)
  | n + 1, h => by
    have hN : cfg0.N = 32 := N_0
    have hB : ¬(⟨n + 1, h⟩ : Fin cfg0.N).val % 32 = 0 := by dsimp only; omega
    rw [outsAt0_B m c ⟨n + 1, h⟩ hB, later_point]
    show k0_pay2 _ _ (outsAt0 m c n _) = k0_pay2 _ _ (total m c n _)
    rw [outsAt_eq_total c n]

theorem last_lt : 31 < cfg0.N := by rw [show cfg0.N = 32 from N_0]; decide

/-- The total after the last tile, as contents of the 1x1 result array. -/
abbrev lastTotal (c : Dev nD) : Buf (Elt F) ((c : Thread nD τ).loc main_v33) := total m c 31 last_lt

/-- The one write-back, after tile 31, writes it: block (0, 0) of the 1x1 array read through zero offsets is the array. -/
theorem flushed_eq (c : Dev nD) (t : Fin cfg0.N) (hf : (cfg0.win 2).flush t = true) :
    (dats m 0 c).flushed 2 t = ((cfg0.win 2).blk t).view.read (Elt F) (lastTotal m c) := by
  have hN : cfg0.N = 32 := N_0
  have h31 : t.val = 31 := by have := (flush0_2 t).mp hf; have := t.isLt; omega
  obtain rfl : t = ⟨31, last_lt⟩ := Fin.ext h31
  show (cfg0.win 2).cut (grid0.coords ⟨31, last_lt⟩) ((dats m 0 c).after 2 ⟨31, last_lt⟩) = _
  rw [after0_2, outsAt_eq_total]
  have hz' : (fun a => win0_2.index ⟨31, last_lt⟩ a * main_v33.ty.shape.size a) = fun _ => 0 := funext fun a => by fin_cases a <;> decide
  exact (Memref.read_access_unit_zero (Elt F) main_v33 hz' (fun a => by rw [congrFun hz' a]; simp) (lastTotal m c)).symm

/-- So the result array ends holding the total after tile 31: that tile's block covers the array. -/
theorem final_total (c : Dev nD) : (dats m 0 c).arrAt 2 cfg0.N = lastTotal m c :=
  (dats m 0 c).arrAt_eq_of_cover 2 (lastTotal m c) (flushed_eq m c) fun i =>
    ⟨⟨31, last_lt⟩, (flush0_2 ⟨31, last_lt⟩).mpr rfl, by
      show i ∈ ((View.whole main_v33).slice (win0_2.rect ⟨31, last_lt⟩)).set
      rw [View.set_slice_whole, Rect.mem_set_unit]
      intro a
      have h0 : (i 0 : Nat) < 1 := (i 0).isLt
      have h1 : (i 1 : Nat) < 1 := (i 1).isLt
      match a with
      | ⟨0, _⟩ => show win0_2.index ⟨31, last_lt⟩ 0 * win0_2.size 0 ≤ (i 0 : Nat) ∧ (i 0 : Nat) < win0_2.index ⟨31, last_lt⟩ 0 * win0_2.size 0 + win0_2.xsize (grid0.coords ⟨31, last_lt⟩) 0
                  rw [show win0_2.index ⟨31, last_lt⟩ 0 * win0_2.size 0 = 0 from by decide +kernel, show win0_2.xsize (grid0.coords ⟨31, last_lt⟩) 0 = 1 from by decide +kernel]; omega
      | ⟨1, _⟩ => show win0_2.index ⟨31, last_lt⟩ 1 * win0_2.size 1 ≤ (i 1 : Nat) ∧ (i 1 : Nat) < win0_2.index ⟨31, last_lt⟩ 1 * win0_2.size 1 + win0_2.xsize (grid0.coords ⟨31, last_lt⟩) 1
                  rw [show win0_2.index ⟨31, last_lt⟩ 1 * win0_2.size 1 = 0 from by decide +kernel, show win0_2.xsize (grid0.coords ⟨31, last_lt⟩) 1 = 1 from by decide +kernel]; omega⟩

/-- The scalar the program returns: the two transition sums the host computed before the kernel, added, plus the
    kernel's total reshaped to a scalar. -/
theorem tail_result (c : Dev nD) :
    Pipeline.afterTail₀ cfgs (dats m) 0 (V0 m) [hostOps1] c main_v36
      = addf (addf (V m c main_v9) (V m c main_v29)) (shapeCast S_ (lastTotal m c) shapeCasts_S1x1_S_) := by
  unfold Pipeline.afterTail₀
  show StableHlo.after hostOps1 _ (Proc.devRef .tc main_v36) = _
  after_results
  rw [Pipeline.withArrays_of_ne _ c (V0 m c) _ main_v9 (by exact (by decide : ∀ w, Pipeline.arrRef spec0 w ≠ main_v9)),
    Pipeline.withArrays_of_ne _ c (V0 m c) _ main_v29 (by exact (by decide : ∀ w, Pipeline.arrRef spec0 w ≠ main_v29)),
    show Pipeline.withArrays (cfgs 0).spec c (V0 m c) (fun w => (dats m 0 c).arrAt w (cfgs 0).N) (Proc.tc.devRef main_v33)
      = lastTotal m c from (Pipeline.withArrays_arr spec0 launch0.win.arr_inj c _ _ 2).trans (final_total m c)]
  rfl

/-- THE RUN, READ: every execution of the program ends with the returned scalar at the two host sums plus the kernel's
    total, and with the four arguments as they were. -/
theorem run_total : θ_run defs (onTc (τ := τ) (main (F := F))) ⟨m, fun _ => 0, ρ⟩ fun r => ∀ c : Dev nD,
      r.2.mem ((c.tc : Thread nD τ).loc main_v36)
        = addf (addf (V m c main_v9) (V m c main_v29)) (shapeCast S_ (lastTotal m c) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v36 (Pipeline.mem_restRefs_of main_v36 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Total

end
-- ==== Proof.TileValue.lean ====
/-
  One tile's number and the running total, at the ideal instance.

  At the ideal instance a lane reduction is the plain sum over the reduced coordinate and the shape casts between
  [16] and [16,1], [1] and [1,1] only rename the index. So the number a tile adds to the total is
      ∑ p : rows of the tile, ∑ q : positions, (∑ k : tags, score p q k) * weight p q,
  and the running total after tile `n` is the zero the first tile stored plus the numbers of tiles `0 … n`.
-/
import proofs.«117368_j14379550507279_1_alg».proof.Proof.RunningTotal
import Idealize.ShloMosaic.PureOps.Ideal.Laws
import Idealize.ShloMosaic.Lib.ValueIdx

noncomputable section

open Idealize.ShloMosaic Idealize.ShloMosaic.TcCoe Idealize.SL.Sem
open Idealize.ShloMosaic.ValueIdx

namespace Cert.KernelIdeal.TileValue

open Cert.KernelIdeal Cert.KernelIdeal.Gen Cert.KernelIdeal.Total

/-- The sum over the tags, at row `p` and position `q`. -/
theorem sum_tags (x0 : FVec Ideal S16x2048x32 .f32) (p : Fin 16) (q : Fin 2048) (hφ : FKind.Formats .f32)
    (hacc : (0x00000000#32 : BitVec 32) = FKind.add.neutral .f32 hφ) :
    multiReduction (F := Ideal) .add [2] S16x2048 x0 0x00000000#32 reduces_S16x2048x32_S16x2048 hφ hacc (ix2 p q)
      = ∑ k : Fin 32, x0 (ix3 p q k) :=
  (Ideal.multiReduction_add_single x0 0x00000000#32 reduces_S16x2048x32_S16x2048 hφ hacc (ix2 p q)).trans
    (Finset.sum_congr rfl fun k _ => congrArg x0 (funext fun a => by
      match a with
      | ⟨0, _⟩ => rfl
      | ⟨1, _⟩ => rfl
      | ⟨2, _⟩ => rfl))

/-- The sum over the positions, at row `p`. -/
theorem sum_positions (v : FVec Ideal S16x2048 .f32) (p : Fin 16) (hφ : FKind.Formats .f32)
    (hacc : (0x00000000#32 : BitVec 32) = FKind.add.neutral .f32 hφ) :
    multiReduction (F := Ideal) .add [1] S16 v 0x00000000#32 reduces_S16x2048_S16 hφ hacc (ix1 p)
      = ∑ q : Fin 2048, v (ix2 p q) :=
  (Ideal.multiReduction_add_single v 0x00000000#32 reduces_S16x2048_S16 hφ hacc (ix1 p)).trans
    (Finset.sum_congr rfl fun q _ => congrArg v (funext fun a => by
      match a with
      | ⟨0, _⟩ => rfl
      | ⟨1, _⟩ => rfl))

/-- The sum over the rows of a column vector. -/
theorem sum_rows (v : FVec Ideal S16x1 .f32) (hφ : FKind.Formats .f32)
    (hacc : (0x00000000#32 : BitVec 32) = FKind.add.neutral .f32 hφ) :
    multiReduction (F := Ideal) .add [0] S1 v 0x00000000#32 reduces_S16x1_S1 hφ hacc (ix1 (0 : Fin 1))
      = ∑ p : Fin 16, v (ix2 p (0 : Fin 1)) :=
  (Ideal.multiReduction_add_single v 0x00000000#32 reduces_S16x1_S1 hφ hacc (ix1 (0 : Fin 1))).trans
    (Finset.sum_congr rfl fun p _ => congrArg v (funext fun a => by
      match a with
      | ⟨0, _⟩ => rfl
      | ⟨1, _⟩ => rfl))

/-- A length-16 vector viewed as a 16x1 column. -/
theorem column_apply (v : FVec Ideal S16 .f32) (p : Fin 16) :
    shapeCast S16x1 v shapeCasts_S16_S16x1 (ix2 p (0 : Fin 1)) = v (ix1 p) :=
  shapeCast_apply v shapeCasts_S16_S16x1 (ix2 p (0 : Fin 1)) (ix1 p) (by
    rw [Shape.rowMajor_val_two, Shape.rowMajor_val_one]; show p.val = p.val * 1 + 0; omega)

/-- A length-1 vector viewed as a 1x1 block. -/
theorem unit_apply (v : FVec Ideal S1 .f32) :
    shapeCast S1x1 v shapeCasts_S1_S1x1 (ix2 (0 : Fin 1) (0 : Fin 1)) = v (ix1 (0 : Fin 1)) :=
  shapeCast_apply v shapeCasts_S1_S1x1 (ix2 (0 : Fin 1) (0 : Fin 1)) (ix1 (0 : Fin 1)) (by
    rw [Shape.rowMajor_val_two, Shape.rowMajor_val_one]; rfl)

/-- THE TILE'S NUMBER: what a tile leaves in the 1x1 buffer is what it found plus the tile's weighted score sum. -/
theorem tile_number (x0 : Vec Ideal S16x2048x32 .f32) (x1 : Vec Ideal S16x2048 .f32) (xo : Vec Ideal S1x1 .f32) :
    k0_pay2 (F := Ideal) x0 x1 xo (ix2 (0 : Fin 1) (0 : Fin 1))
      = xo (ix2 (0 : Fin 1) (0 : Fin 1)) + ∑ p : Fin 16, ∑ q : Fin 2048, (∑ k : Fin 32, x0 (ix3 p q k)) * x1 (ix2 p q) := by
  unfold k0_pay2
  dsimp only
  show shapeCast S1x1 xo _ (ix2 (0 : Fin 1) (0 : Fin 1)) + shapeCast S1x1 _ _ (ix2 (0 : Fin 1) (0 : Fin 1)) = _
  rw [shapeCast_self]
  refine congrArg (xo (ix2 (0 : Fin 1) (0 : Fin 1)) + ·) ?_
  refine (unit_apply _).trans ?_
  refine (sum_rows _ _ _).trans ?_
  refine Finset.sum_congr rfl fun p _ => ?_
  refine (column_apply _ p).trans ?_
  refine (sum_positions _ p _ _).trans ?_
  refine Finset.sum_congr rfl fun q _ => ?_
  show multiReduction (F := Ideal) .add [2] S16x2048 x0 0x00000000#32 reduces_S16x2048x32_S16x2048 _ _ (ix2 p q)
      * shapeCast S16x2048 x1 _ (ix2 p q) = _
  rw [shapeCast_self]
  exact congrArg (· * x1 (ix2 p q)) (sum_tags x0 p q _ _)

variable (m : (ℓ : Loc nD τ sig) → Buf (Elt Ideal) ℓ)

/-- Tile `t`'s number: its weighted score sum over its 16 rows and all positions. -/
def tileNum (c : Dev nD) (t : Fin cfg0.N) : EReal :=
  ∑ p : Fin 16, ∑ q : Fin 2048, (∑ k : Fin 32, scores m c t (ix3 p q k)) * weights m c t (ix2 p q)

/-- The value the first tile stores before adding: the real number zero. -/
theorem start_zero : k0_pay1 (F := Ideal) (ix2 (0 : Fin 1) (0 : Fin 1)) = (0 : EReal) := Ideal.ofBits_zero_f32

/-- The running total after tile `n` is the sum of the numbers of tiles `0 … n`: by induction on the tile. -/
theorem total_apply (c : Dev nD) : ∀ (n : ℕ) (h : n < cfg0.N),
    total m c n h (ix2 (0 : Fin 1) (0 : Fin 1)) = ∑ t : Fin (n + 1), tileNum m c ⟨t.val, Nat.lt_of_lt_of_le t.isLt (Nat.succ_le_of_lt h)⟩
  | 0, h => by
    show k0_pay2 (F := Ideal) (scores m c ⟨0, h⟩) (weights m c ⟨0, h⟩) (k0_pay1 (F := Ideal)) (ix2 (0 : Fin 1) (0 : Fin 1)) = _
    rw [tile_number, start_zero, zero_add, Fin.sum_univ_one]
    rfl
  | n + 1, h => by
    show k0_pay2 (F := Ideal) (scores m c ⟨n + 1, h⟩) (weights m c ⟨n + 1, h⟩) (total m c n _) (ix2 (0 : Fin 1) (0 : Fin 1)) = _
    rw [tile_number, total_apply c n]
    conv_rhs => rw [Fin.sum_univ_castSucc]
    rfl

end Cert.KernelIdeal.TileValue

end
-- ==== Proof.LibScatterSet.lean ====
/-
  A scatter whose body returns the update ("set"), read at an index.

  The scatter is a left fold over the update indices: each update index that lands inside the operand overwrites the
  element at its landing index with the update's value; the others are dropped. If exactly one update index lands on
  `i`, the result at `i` is that update's value; if none does, it is the operand's value at `i`.
  Last, the case of one scalar start index `0` on the column axis of a rank-2 operand with a whole column as the update
  window (what `x.at[:, 0].set(v)` lowers to): column `0` holds the updates, every other column the operand.
-/
import Idealize.ShloMosaic.PureOps.Ideal
import Idealize.ShloMosaic.Lib.ValueIdx
import Idealize.ShloMosaic.Lib.StableHlo.Run

noncomputable section

namespace ScatterSet

open Idealize.ShloMosaic Idealize.ShloMosaic.ValueIdx

/-! ## The fold, one element at a time -/

/-- A left fold whose steps over the list all leave the value at `i` alone (each step taken at an element with the
    property `P`, which every element of the list has) ends with the value at `i` it started with. -/
private theorem foldl_keep {ι κ α : Type} (step : (ι → α) → κ → (ι → α)) (i : ι) (P : κ → Prop)
    (hstep : ∀ r n, P n → step r n i = r i) :
    ∀ (l : List κ) (r : ι → α), (∀ n ∈ l, P n) → l.foldl step r i = r i
  | [], _, _ => rfl
  | n :: l, r, h => by
    rw [List.foldl_cons, foldl_keep step i P hstep l _ (fun m hm => h m (List.mem_cons_of_mem _ hm)),
      hstep r n (h n List.mem_cons_self)]

/-- One step of the scatter's fold at an update index that does not land on `i` leaves the value at `i` alone:
    either the update is dropped, or it overwrites another element. -/
private theorem step_miss {s si u : Shape} {w : Nat} {α : Type} (d : ScatterDims s si u) (idx : IVec si w)
    (upd : u.Idx → α) (i : s.Idx) (r : s.Idx → α) (n : Fin u.numel)
    (hn : d.resultIdx? (u.rowMajor.symm n) idx ≠ some i) :
    (match d.resultIdx? (u.rowMajor.symm n) idx with
      | some i₀ => fun i' => if i' = i₀ then (fun (_ : α) v => v) (r i₀) (upd (u.rowMajor.symm n)) else r i'
      | none => r) i = r i := by
  cases h : d.resultIdx? (u.rowMajor.symm n) idx with
  | none => rfl
  | some i₀ =>
    have hne : i ≠ i₀ := fun e => hn (e ▸ h)
    simp [hne]

/-! ## The two general readings -/

/-- Exactly one update index `j` lands on `i`: the result there is the update at `j`. -/
theorem scatter_set_hit {s si u : Shape} {w : Nat} {α : Type} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ v => v) x idx upd i = upd j := by
  unfold Host.scatter
  -- the list of update positions splits at the position of `j`; the positions have no repetition, so `j`'s own is
  -- not among the later ones
  have hmem : u.rowMajor j ∈ List.finRange u.numel := List.mem_finRange _
  obtain ⟨l₁, l₂, hl⟩ := List.append_of_mem hmem
  have hnd : (List.finRange u.numel).Nodup := List.nodup_finRange _
  rw [hl] at hnd ⊢
  have hn2 : u.rowMajor j ∉ l₂ := by
    have h1 := (List.nodup_append.1 hnd).2.1
    exact (List.nodup_cons.1 h1).1
  -- the step at `j` writes the update at `i`, and no later step touches `i`
  rw [List.foldl_append, List.foldl_cons]
  rw [foldl_keep _ i (fun n => d.resultIdx? (u.rowMajor.symm n) idx ≠ some i) ?_ l₂ _ ?_]
  · simp only [Equiv.symm_apply_apply, hj]
    simp
  · intro r n hn
    exact step_miss d idx upd i r n hn
  · intro m hm hres
    have := huniq _ hres
    apply hn2
    rw [← this, Equiv.apply_symm_apply]
    exact hm

/-- No update index lands on `i`: the result there is the operand's element. -/
theorem scatter_set_miss {s si u : Shape} {w : Nat} {α : Type} (d : ScatterDims s si u) (x : s.Idx → α) (idx : IVec si w)
    (upd : u.Idx → α) (i : s.Idx) (hmiss : ∀ j', d.resultIdx? j' idx ≠ some i) :
    Host.scatter d (fun _ v => v) x idx upd i = x i := by
  unfold Host.scatter
  apply foldl_keep _ i (fun n => d.resultIdx? (u.rowMajor.symm n) idx ≠ some i)
  · intro r n hn
    exact step_miss d idx upd i r n hn
  · intro n _; exact hmiss _

/-! ## Column `0` of a rank-2 operand -/

/-- With every start index word `0`, the window starts at `0` on both operand axes: the row axis is not named by the
    start index map, and the column axis reads a start index word, which is `0`. -/
private theorem col0_start {R C : Nat} (d : ScatterDims ⟨2, ![R, C]⟩ ⟨1, ![1]⟩ ⟨1, ![R]⟩)
    (idx : IVec ⟨1, ![1]⟩ 32) (hidx : ∀ k, idx k = 0#32) (j : (⟨1, ![R]⟩ : Shape).Idx) (a : Fin 2) :
    d.start j idx a = 0 := by
  unfold ScatterDims.start
  split
  · rw [hidx]; rfl
  · rfl

/-- The window coordinate on the row axis is the update index's one coordinate (the row axis is the operand's only
    kept axis, and the update's axis `0` is its window axis). -/
private theorem col0_window0 {R C : Nat} (d : ScatterDims ⟨2, ![R, C]⟩ ⟨1, ![1]⟩ ⟨1, ![R]⟩)
    (hu : d.updateWindowDims = [0]) (hi : d.insertedWindowDims = [1]) (j : (⟨1, ![R]⟩ : Shape).Idx) :
    d.window j 0 = (j 0).val := by
  obtain ⟨uw, iw, sd, iv, wf⟩ := d
  simp only at hu hi
  subst hu hi
  rfl

/-- The window coordinate on the column axis, an inserted axis, is `0`. -/
private theorem col0_window1 {R C : Nat} (d : ScatterDims ⟨2, ![R, C]⟩ ⟨1, ![1]⟩ ⟨1, ![R]⟩)
    (hu : d.updateWindowDims = [0]) (hi : d.insertedWindowDims = [1]) (j : (⟨1, ![R]⟩ : Shape).Idx) :
    d.window j 1 = 0 := by
  obtain ⟨uw, iw, sd, iv, wf⟩ := d
  simp only at hu hi
  subst hu hi
  rfl

/-- So update index `j` lands at row `j 0`, column `0`. -/
private theorem col0_resultIdx {R C : Nat} (d : ScatterDims ⟨2, ![R, C]⟩ ⟨1, ![1]⟩ ⟨1, ![R]⟩)
    (hu : d.updateWindowDims = [0]) (hi : d.insertedWindowDims = [1])
    (idx : IVec ⟨1, ![1]⟩ 32) (hidx : ∀ k, idx k = 0#32) (hC : 0 < C) (j : (⟨1, ![R]⟩ : Shape).Idx) :
    d.resultIdx? j idx = some (@ix2 R C (j 0) ⟨0, hC⟩) := by
  have hs := col0_start d idx hidx j
  have hw0 := col0_window0 d hu hi j
  have hw1 := col0_window1 d hu hi j
  have hjR : (j 0).val < R := (j 0).isLt
  have hcond : ∀ a : Fin 2, 0 ≤ d.start j idx a + d.window j a ∧
      d.start j idx a + d.window j a < ((⟨2, ![R, C]⟩ : Shape).size a : Int) := by
    rw [Fin.forall_fin_two]
    refine ⟨?_, ?_⟩
    · rw [hs, hw0]
      refine ⟨by omega, ?_⟩
      show (0 : Int) + ((j 0).val : Int) < (R : Int)
      omega
    · rw [hs, hw1]
      refine ⟨by omega, ?_⟩
      show (0 : Int) + ((0 : Nat) : Int) < (C : Int)
      omega
  unfold ScatterDims.resultIdx?
  split
  · congr 1
    funext a
    match a with
    | ⟨0, _⟩ =>
      apply Fin.ext
      show (d.start j idx 0 + (d.window j 0 : Int)).toNat = (j 0).val
      rw [hs, hw0]; simp
    | ⟨1, _⟩ =>
      apply Fin.ext
      show (d.start j idx 1 + (d.window j 1 : Int)).toNat = 0
      rw [hs, hw1]; simp
  · next h => exact absurd hcond h

/-- Setting column `0` of an `R × C` array to a length-`R` update: one start index, the word `0`, on the column axis;
    the update's one axis is the window over the rows. -/
theorem set_column_zero_apply {R C : Nat} {α : Type} (d : ScatterDims ⟨2, ![R, C]⟩ ⟨1, ![1]⟩ ⟨1, ![R]⟩)
    (hu : d.updateWindowDims = [0]) (hi : d.insertedWindowDims = [1]) (hs : d.scatterDimsToOperandDims = [1])
    (hv : d.indexVectorDim = 0) (x : (⟨2, ![R, C]⟩ : Shape).Idx → α) (idx : IVec ⟨1, ![1]⟩ 32) (hidx : ∀ k, idx k = 0#32)
    (upd : (⟨1, ![R]⟩ : Shape).Idx → α) (b : Fin R) (q : Fin C) :
    Host.scatter d (fun _ v => v) x idx upd (ix2 b q) = if q.val = 0 then upd (ix1 b) else x (ix2 b q) := by
  have hC : 0 < C := Nat.lt_of_le_of_lt (Nat.zero_le _) q.isLt
  have hres := col0_resultIdx d hu hi idx hidx hC
  by_cases hq : q.val = 0
  · rw [if_pos hq]
    have hq' : q = ⟨0, hC⟩ := Fin.ext hq
    subst hq'
    apply scatter_set_hit d x idx upd _ (ix1 b)
    · exact hres _
    · intro j' hj'
      rw [hres] at hj'
      have h0 : j' 0 = b := congrFun (Option.some.inj hj') 0
      subst h0
      exact eq_ix1 j'
  · rw [if_neg hq]
    apply scatter_set_miss
    intro j' hj'
    rw [hres] at hj'
    have h1 : (⟨0, hC⟩ : Fin C) = q := congrFun (Option.some.inj hj') 1
    exact hq (by rw [← h1])

end ScatterSet

end
-- ==== Proof.SumLaws.lean ====
/-
  Sums over a batch of sequences, tiled and untiled.

  A score array `e b q k` (batch `b`, position `q`, tag `k`) is summed with a per-position weight that is `1` at
  position `0` and a mask value `mk b q` elsewhere. The tiled form runs over 32 tiles of 16 batch rows, sums the
  tags first and multiplies by the weight afterwards; the untiled form takes position `0` unweighted and multiplies
  every later entry by the mask before summing. On real numbers the two agree: a sum over (tile, row in tile) is the
  sum over the batch, position `0` splits off the sum over positions, and a factor moves into a finite sum.
  On the extended reals the last step needs every entry finite, which is what the hypotheses say.
-/
import Mathlib.Data.EReal.Basic
import Mathlib.Algebra.BigOperators.Fin
import Mathlib.Algebra.BigOperators.Ring.Finset

noncomputable section

open scoped BigOperators

namespace CrfScore

/-- Row `p` of tile `t` is batch row `16 t + p`. -/
def tileRow (t : Fin 32) (p : Fin 16) : Fin 512 := ⟨16 * t.val + p.val, by have := t.isLt; have := p.isLt; omega⟩

/-- The coercion of reals into extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over (tile, row in tile) is the sum over the batch: `(t, p) ↦ 16 t + p` is a bijection of
`Fin 32 × Fin 16` onto `Fin 512`. -/
private theorem sum_tileRow (f : Fin 512 → ℝ) :
    ∑ t : Fin 32, ∑ p : Fin 16, f (tileRow t p) = ∑ b : Fin 512, f b := by
  rw [← Fintype.sum_prod_type' (f := fun t p => f (tileRow t p))]
  refine Fintype.sum_equiv (finProdFinEquiv : Fin 32 × Fin 16 ≃ Fin (32 * 16)) _ _ ?_
  rintro ⟨t, p⟩
  show f (tileRow t p) = f (finProdFinEquiv (t, p))
  congr 1
  apply Fin.ext
  simp [tileRow, finProdFinEquiv]
  omega

/-- The identity on real numbers: re-index the tiles as the batch, split position `0` off the sum over positions
(there the weight is `1`; at a successor position it is the mask), and move the mask factor into the sum over tags. -/
private theorem tiled_weighted_sum_real (E : Fin 512 → Fin 2048 → Fin 32 → ℝ) (M : Fin 512 → Fin 2048 → ℝ) :
    (∑ t : Fin 32, ∑ p : Fin 16, ∑ q : Fin 2048,
        (∑ k : Fin 32, E (tileRow t p) q k) * (if q.val = 0 then (1 : ℝ) else M (tileRow t p) q))
      = (∑ b : Fin 512, ∑ k : Fin 32, E b 0 k)
        + ∑ b : Fin 512, ∑ s : Fin 2047, ∑ k : Fin 32, E b s.succ k * M b s.succ := by
  rw [sum_tileRow (fun b => ∑ q : Fin 2048, (∑ k : Fin 32, E b q k) * (if q.val = 0 then (1 : ℝ) else M b q))]
  rw [← Finset.sum_add_distrib]
  refine Finset.sum_congr rfl fun b _ => ?_
  rw [Fin.sum_univ_succ]
  congr 1
  · simp
  · refine Finset.sum_congr rfl fun s _ => ?_
    rw [if_neg (by simp), Finset.sum_mul]

/-- The tiled, weight-after-tag-sum form equals the untiled, mask-before-sum form when every entry is a real number. -/
theorem tiled_weighted_sum (e : Fin 512 → Fin 2048 → Fin 32 → EReal) (mk : Fin 512 → Fin 2048 → EReal)
    (he : ∀ b q k, ∃ r : ℝ, e b q k = (r : EReal)) (hm : ∀ b q, ∃ r : ℝ, mk b q = (r : EReal)) :
    (∑ t : Fin 32, ∑ p : Fin 16, ∑ q : Fin 2048,
        (∑ k : Fin 32, e (tileRow t p) q k) * (if q.val = 0 then (1 : EReal) else mk (tileRow t p) q))
      = (∑ b : Fin 512, ∑ k : Fin 32, e b 0 k)
        + ∑ b : Fin 512, ∑ s : Fin 2047, ∑ k : Fin 32, e b s.succ k * mk b s.succ := by
  -- every entry and every mask value is the coercion of a real number
  choose E hE using he
  choose M hM using hm
  -- the weight is the coercion of the real weight
  have hif : ∀ (b : Fin 512) (q : Fin 2048), (if q.val = 0 then (1 : EReal) else mk b q)
      = ((if q.val = 0 then (1 : ℝ) else M b q : ℝ) : EReal) := by
    intro b q
    by_cases h : q.val = 0
    · rw [if_pos h, if_pos h, EReal.coe_one]
    · rw [if_neg h, if_neg h, hM]
  simp only [hif]
  -- both sides are coercions of real numbers; the real numbers agree
  simp only [hE, hM, ← EReal.coe_mul, ← coe_sum, ← EReal.coe_add]
  exact congrArg _ (tiled_weighted_sum_real E M)

end CrfScore

end
-- ==== Proof.KernelScore.lean ====
/-
  The kernel's total as sums over the whole arrays (at the ideal instance).

  Tile `t`'s block of the emission scores is rows `16 t … 16 t + 15` of the array, and likewise its block of the
  weights. The weight array is the mask with column 0 set to one (the host scatter before the kernel). So the total
  after the last tile is the tiled weighted sum of the whole arrays, which for real-valued scores and mask is the
  first position's scores plus the masked later positions' scores.
-/
import proofs.«117368_j14379550507279_1_alg».proof.Proof.TileValue
import proofs.«117368_j14379550507279_1_alg».proof.Proof.LibScatterSet
import proofs.«117368_j14379550507279_1_alg».proof.Proof.SumLaws

noncomputable section

open Idealize.ShloMosaic Idealize.ShloMosaic.TcCoe Idealize.SL.Sem
open Idealize.ShloMosaic.ValueIdx

namespace Cert.KernelIdeal.KScore

open Cert.KernelIdeal Cert.KernelIdeal.Gen Cert.KernelIdeal.Total Cert.KernelIdeal.TileValue

variable (m : (ℓ : Loc nD τ sig) → Buf (Elt Ideal) ℓ)

/-- Both input windows' block index at tile `t` is `(t, 0, …)`: decided over the 32 tiles. -/
theorem tile_index : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- Row `p` of tile `t`, as a batch row. -/
def rowOf (t : Fin cfg0.N) (p : Fin 16) : Fin 512 := CrfScore.tileRow ⟨t.val, lt_of_lt_of_eq t.isLt N_0⟩ p

/-- Tile `t`'s block of scores reads the emission array at its rows. -/
theorem scores_apply (c : Dev nD) (t : Fin cfg0.N) (p : Fin 16) (q : Fin 2048) (k : Fin 32) :
    scores m c t (ix3 p q k) = m ((c.tc : Thread nD τ).loc main_arg0) (ix3 (rowOf t p) q k) := by
  show iblk m c 0 t (ix3 p q k) = _
  unfold iblk
  rw [View.read_apply]
  show V m c main_arg0 _ = _
  rw [V_main_arg0]
  refine congrArg _ (funext fun a => Fin.ext ?_)
  match a with
  | ⟨0, _⟩ => show win0_0.index t 0 * 16 + 1 * p.val = 16 * t.val + p.val; rw [(tile_index t).1]; omega
  | ⟨1, _⟩ => show win0_0.index t 1 * 2048 + 1 * q.val = q.val; rw [(tile_index t).2.1]; omega
  | ⟨2, _⟩ => show win0_0.index t 2 * 32 + 1 * k.val = k.val; rw [(tile_index t).2.2.1]; omega

/-- Tile `t`'s block of weights reads the weight array at its rows. -/
theorem weights_apply (c : Dev nD) (t : Fin cfg0.N) (p : Fin 16) (q : Fin 2048) :
    weights m c t (ix2 p q) = V m c main_v32 (ix2 (rowOf t p) q) := by
  show iblk m c 1 t (ix2 p q) = _
  unfold iblk
  rw [View.read_apply]
  show V m c main_v32 _ = _
  refine congrArg _ (funext fun a => Fin.ext ?_)
  match a with
  | ⟨0, _⟩ => show win0_1.index t 0 * 16 + 1 * p.val = 16 * t.val + p.val; rw [(tile_index t).2.2.2.1]; omega
  | ⟨1, _⟩ => show win0_1.index t 1 * 2048 + 1 * q.val = q.val; rw [(tile_index t).2.2.2.2]; omega

/-- The weight array the kernel is given: the mask with the updates `1.0` scattered at column 0. -/
theorem weight_array (c : Dev nD) :
    (V m c main_v32 : S512x2048.Idx → EReal)
      = Host.scatter scatter_S512x2048_S1_S512_0_1_1_0 (fun _ b => b) (m ((c.tc : Thread nD τ).loc main_arg2))
          (broadcastInDim S1 ![] bcast_S_S1 (constantI S_ 32 0#32))
          (broadcastInDim S512 ![] bcast_S_S512 (constant (F := Ideal) S_ .f32 0x3F800000#32)) := by
  show StableHlo.after hostOps0 (fun b => m (c, b)) (Proc.devRef .tc main_v32) = _
  after_results
  rfl

/-- Read at an index: one at position 0, the mask elsewhere. -/
theorem weight_apply (c : Dev nD) (b : Fin 512) (q : Fin 2048) :
    V m c main_v32 (ix2 b q) = if q.val = 0 then (1 : EReal) else m ((c.tc : Thread nD τ).loc main_arg2) (ix2 b q) := by
  rw [weight_array]
  refine (ScatterSet.set_column_zero_apply scatter_S512x2048_S1_S512_0_1_1_0 rfl rfl rfl rfl
    (m ((c.tc : Thread nD τ).loc main_arg2)) (broadcastInDim S1 ![] bcast_S_S1 (constantI S_ 32 0#32)) (fun _ => rfl)
    (broadcastInDim S512 ![] bcast_S_S512 (constant (F := Ideal) S_ .f32 0x3F800000#32)) b q).trans ?_
  by_cases hq : q.val = 0
  · rw [if_pos hq, if_pos hq]
    exact IdealRules.sign_bit.ideal_onePat .f32
  · rw [if_neg hq, if_neg hq]

/-- A 1x1 block viewed as a scalar. -/
theorem scalar_apply (v : FVec Ideal S1x1 .f32) :
    shapeCast S_ v shapeCasts_S1x1_S_ ix0 = v (ix2 (0 : Fin 1) (0 : Fin 1)) := by
  unfold shapeCast
  refine congrArg v (funext fun a => ?_)
  match a with
  | ⟨0, _⟩ => exact Subsingleton.elim (α := Fin 1) _ _
  | ⟨1, _⟩ => exact Subsingleton.elim (α := Fin 1) _ _

/-- The emission scores and the mask as the program is launched with them, at their literal types. -/
abbrev emis (c : Dev nD) : S512x2048x32.Idx → EReal := m ((c.tc : Thread nD τ).loc main_arg0)
abbrev msk (c : Dev nD) : S512x2048.Idx → EReal := m ((c.tc : Thread nD τ).loc main_arg2)

/-- THE KERNEL'S TOTAL: for real-valued emission scores and mask, the total after the last tile is the first
    position's scores plus the masked scores of the later positions. -/
theorem kernel_total (c : Dev nD)
    (he : ∀ i, ∃ r : ℝ, emis m c i = (r : EReal)) (hm : ∀ i, ∃ r : ℝ, msk m c i = (r : EReal)) :
    (lastTotal m c (ix2 (0 : Fin 1) (0 : Fin 1)) : EReal)
      = (∑ b : Fin 512, ∑ k : Fin 32, emis m c (ix3 b (0 : Fin 2048) k))
        + ∑ b : Fin 512, ∑ s : Fin 2047, ∑ k : Fin 32, emis m c (ix3 b s.succ k) * msk m c (ix2 b s.succ) := by
  show total m c 31 last_lt (ix2 (0 : Fin 1) (0 : Fin 1)) = _
  rw [total_apply]
  refine Eq.trans ?_ (CrfScore.tiled_weighted_sum (fun b q k => emis m c (ix3 b q k))
    (fun b q => msk m c (ix2 b q)) (fun b q k => he _) (fun b q => hm _))
  show ∑ t : Fin 32, tileNum m c ⟨t.val, _⟩ = _
  refine Finset.sum_congr rfl fun t _ => ?_
  unfold tileNum
  refine Finset.sum_congr rfl fun p _ => Finset.sum_congr rfl fun q _ => ?_
  rw [weights_apply, weight_apply]
  refine congrArg (· * _) (Finset.sum_congr rfl fun k _ => ?_)
  exact scores_apply m c _ p q k

end Cert.KernelIdeal.KScore

end
-- ==== Proof.ReferenceScore.lean ====
/-
  The reference's result, read as sums over coordinates (at the ideal instance).

  The reference adds three numbers: the sum over (batch, tag) of the first tag's transition row plus the first
  position's emission score; 32 times the masked sum of the step transitions; and the sum over (batch, later position,
  tag) of the emission score times the mask. Each `jnp.sum` is the initial zero plus the sum over every index of its
  operand; the slices and the reshape only shift or rename coordinates: position `s` of the slice is position `s + 1`
  of the array, and entry (b, k) of the reshaped first-position slice is entry (b, 0, k).
-/
import proofs.«117368_j14379550507279_1_alg».proof.Proof.Gen.ReferenceIdeal.Read
import Idealize.ShloMosaic.PureOps.Ideal.Laws
import Idealize.ShloMosaic.Lib.ValueIdx

noncomputable section

open Idealize.ShloMosaic Idealize.ShloMosaic.TcCoe Idealize.SL.Sem
open Idealize.ShloMosaic.ValueIdx

namespace Cert.ReferenceIdeal.Score

open Cert.ReferenceIdeal Cert.ReferenceIdeal.Gen Cert.ReferenceIdeal.Read

/-- A rank-3 index set is the product of its three coordinate ranges, so a sum over it is the triple sum. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

variable (x0 : (⟨S512x2048x32, .f32⟩ : BufTy).Contents (Elt Ideal)) (x1 : (⟨S512x2048, .i32⟩ : BufTy).Contents (Elt Ideal))
  (x2 : (⟨S512x2048, .f32⟩ : BufTy).Contents (Elt Ideal)) (x3 : (⟨S32x32, .f32⟩ : BufTy).Contents (Elt Ideal))

/-- Entry (b, k) of the reshaped first-position slice is the emission score at (b, 0, k). -/
theorem first_position (b : Fin 512) (k : Fin 32) :
    val_main_v10 (F := Ideal) x0 (ix2 b k) = x0 (ix3 b (0 : Fin 2048) k) := by
  rw [val_main_v10_apply, val_main_v9_apply]
  refine congrArg x0 (funext fun a => Fin.ext ?_)
  have hb := b.isLt; have hk := k.isLt
  match a with
  | ⟨0, _⟩ => show (b.val * 32 + k.val) / 32 = b.val; omega
  | ⟨1, _⟩ => rfl
  | ⟨2, _⟩ => show (b.val * 32 + k.val) % 32 = k.val; omega

/-- Position `s` of the later-positions slice of the emission scores is position `s + 1`. -/
theorem later_scores (b : Fin 512) (s : Fin 2047) (k : Fin 32) :
    val_main_v30 (F := Ideal) x0 (ix3 b s k) = x0 (ix3 b s.succ k) := by
  rw [val_main_v30_apply]
  refine congrArg x0 (funext fun a => Fin.ext ?_)
  match a with
  | ⟨0, _⟩ => rfl
  | ⟨1, _⟩ => show 1 + s.val = s.val + 1; omega
  | ⟨2, _⟩ => rfl

/-- The mask broadcast over the tags, at (b, s, k), is the mask at position `s + 1`. -/
theorem later_mask (b : Fin 512) (s : Fin 2047) (k : Fin 32) :
    val_main_v33 (F := Ideal) x2 (ix3 b s k) = x2 (ix2 b s.succ) := by
  rw [val_main_v33_apply, val_main_v32_apply, val_main_v31_apply]
  refine congrArg x2 (funext fun a => Fin.ext ?_)
  match a with
  | ⟨0, _⟩ => rfl
  | ⟨1, _⟩ => show 1 + s.val = s.val + 1; omega

/-- THE REFERENCE'S RESULT: the three numbers, each a sum over coordinates. The masked step-transition number
    (`val_main_v37`) is kept as it is: the kernel's program computes it by the same host operations. -/
theorem reference_value :
    val_main_v40 (F := Ideal) x0 x1 x2 x3 ix0
      = ((Ideal.ofBits .f32 0x00000000#32 + ∑ b : Fin 512, ∑ k : Fin 32, (val_main_v8 (F := Ideal) x1 x3 (ix2 b k) + x0 (ix3 b (0 : Fin 2048) k)))
          + val_main_v37 (F := Ideal) x1 x2 x3 ix0)
        + (Ideal.ofBits .f32 0x00000000#32 + ∑ b : Fin 512, ∑ s : Fin 2047, ∑ k : Fin 32, x0 (ix3 b s.succ k) * x2 (ix2 b s.succ)) := by
  show val_main_v35 (F := Ideal) x0 x1 x3 ix0 + val_main_v37 (F := Ideal) x1 x2 x3 ix0 + val_main_v39 (F := Ideal) x0 x2 ix0 = _
  rw [val_main_v35_apply, val_main_v39_apply, sum_idx2, sum_idx3]
  congr 2
  · congr 1
    refine Finset.sum_congr rfl fun b _ => Finset.sum_congr rfl fun k _ => ?_
    show val_main_v8 (F := Ideal) x1 x3 (ix2 b k) + val_main_v10 (F := Ideal) x0 (ix2 b k) = _
    rw [first_position]
  · refine Finset.sum_congr rfl fun b _ => Finset.sum_congr rfl fun s _ => Finset.sum_congr rfl fun k _ => ?_
    show val_main_v30 (F := Ideal) x0 (ix3 b s k) * val_main_v33 (F := Ideal) x2 (ix3 b s k) = _
    rw [later_scores, later_mask]

end Cert.ReferenceIdeal.Score

end
-- ==== Proof.HostSums.lean ====
/-
  The two transition sums the kernel's program computes on the host, in the reference's words.

  Before the kernel the program gathers the first tag's transition row per batch element and sums it, and gathers the
  step transitions, masks them, sums them and multiplies by 32. These are, operation for operation, the reference's
  own host operations on the same arguments; the first sum, read at the ideal instance, is zero plus the sum over
  every (batch, tag) index.
-/
import proofs.«117368_j14379550507279_1_alg».proof.Proof.RunningTotal
import proofs.«117368_j14379550507279_1_alg».proof.Proof.Gen.ReferenceIdeal.Read
import Idealize.ShloMosaic.PureOps.Ideal.Laws
import Idealize.ShloMosaic.Lib.ValueIdx

noncomputable section

open Idealize.ShloMosaic Idealize.ShloMosaic.TcCoe Idealize.SL.Sem
open Idealize.ShloMosaic.ValueIdx

namespace Cert.Proof.HostSums

open Cert.KernelIdeal Cert.KernelIdeal.Gen

variable (m : (ℓ : Loc nD τ sig) → Buf (Elt Ideal) ℓ)

/-- The tags and the transition table the program is launched with, at their literal types. -/
abbrev tagsArr (c : Dev nD) : (⟨S512x2048, .i32⟩ : BufTy).Contents (Elt Ideal) := m ((c.tc : Thread nD τ).loc main_arg1)
abbrev maskArr (c : Dev nD) : (⟨S512x2048, .f32⟩ : BufTy).Contents (Elt Ideal) := m ((c.tc : Thread nD τ).loc main_arg2)
abbrev transArr (c : Dev nD) : (⟨S32x32, .f32⟩ : BufTy).Contents (Elt Ideal) := m ((c.tc : Thread nD τ).loc main_arg3)

/-- The sum of the first tags' transition rows is the host reduction of the reference's gathered rows. -/
theorem row_sum_term (c : Dev nD) :
    (V m c main_v9 : S_.Idx → EReal)
      = Host.reduceAdd (F := Ideal) (Cert.ReferenceIdeal.Read.val_main_v8 (F := Ideal) (tagsArr m c) (transArr m c))
          (constant (F := Ideal) S_ .f32 0x00000000#32) reducesTo_S512x32_S_d0_1 h_S_ := by
  show StableHlo.after hostOps0 (fun b => m (c, b)) (Proc.devRef .tc main_v9) = _
  after_results
  rfl

/-- A host sum over both axes of a 512x32 array from the zero, at the ideal instance. -/
theorem reduce_rows (y : FVec Ideal S512x32 .f32) :
    Host.reduceAdd (F := Ideal) y (constant (F := Ideal) S_ .f32 0x00000000#32) reducesTo_S512x32_S_d0_1 h_S_ ix0
      = Ideal.ofBits .f32 0x00000000#32 + ∑ j : S512x32.Idx, y j := by
  simp only [Host.reduceAdd, Ideal.hostReduceAdd_def]
  exact Ideal.hostReduceAdd_total reducesTo_S512x32_S_d0_1 (fun b => b.elim0) y _ ix0

/-- Read at the ideal instance: zero plus the sum over every (batch, tag) index. -/
theorem row_sum (c : Dev nD) :
    (V m c main_v9 ix0 : EReal)
      = Ideal.ofBits .f32 0x00000000#32
        + ∑ j : S512x32.Idx, Cert.ReferenceIdeal.Read.val_main_v8 (F := Ideal) (tagsArr m c) (transArr m c) j :=
  (congrFun (row_sum_term m c) ix0).trans
    (reduce_rows (Cert.ReferenceIdeal.Read.val_main_v8 (F := Ideal) (tagsArr m c) (transArr m c)))

set_option maxRecDepth 8192 in
set_option maxHeartbeats 2000000 in
/-- The masked step-transition number is the reference's. -/
theorem step_sum (c : Dev nD) :
    (V m c main_v29 : S_.Idx → EReal)
      = Cert.ReferenceIdeal.Read.val_main_v37 (F := Ideal) (tagsArr m c) (maskArr m c) (transArr m c) := by
  show StableHlo.after hostOps0 (fun b => m (c, b)) (Proc.devRef .tc main_v29) = _
  after_results_simp <;> rfl

end Cert.Proof.HostSums

end
-- ==== Proof.FiniteInputs.lean ====
/-
  What the precondition gives: every emission score and every mask entry is a real number.

  The precondition is the conjunction of three tests "|x| < +inf at every index", one per float input, each folded
  with `and` over the whole array. An extended real whose absolute value is below `+inf` is neither `+inf` nor `-inf`,
  so it is the image of a real number.
-/
import proofs.«117368_j14379550507279_1_alg».proof.Pre_finite_inputs
import Idealize.ShloMosaic.PureOps.Ideal
import Idealize.ShloMosaic.Lib.ReduceAll
import Idealize.ShloMosaic.Lib.ValueIdx

noncomputable section

namespace CrfScore

open Idealize.ShloMosaic

/-- An extended real `x` with `max x (-x) < +inf` (the pattern `0x7F800000` denotes `+inf`) is a real number:
    at `x = +inf` the maximum is `+inf`, at `x = -inf` it is `-(-inf) = +inf`, and neither is below `+inf`. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- If the finiteness predicate holds of the four inputs at the ideal instance, the emissions (first input) and the
    mask (third input) are real-valued at every index. -/
theorem real_of_finite [Cert.Pre_finite_inputs.Facts]
    (x0 : FVec Ideal Cert.Pre_finite_inputs.S512x2048x32 .f32) (x1 : IVec Cert.Pre_finite_inputs.S512x2048 32)
    (x2 : FVec Ideal Cert.Pre_finite_inputs.S512x2048 .f32) (x3 : FVec Ideal Cert.Pre_finite_inputs.S32x32 .f32)
    (h : Cert.Pre_finite_inputs.fn (F := Ideal) x0 x1 x2 x3 = fun _ => 1#1) :
    (∀ i, ∃ r : ℝ, x0 i = (r : EReal)) ∧ (∀ i, ∃ r : ℝ, x2 i = (r : EReal)) := by
  -- the predicate's one element is 1
  have h0 := congrFun h ValueIdx.ix0
  dsimp only [Cert.Pre_finite_inputs.fn] at h0
  -- a conjunction that is 1 has both conjuncts 1: (all₀ ∧ all₂) ∧ all₃
  obtain ⟨h01, _⟩ := IntOp.andi_eq_one.1 h0
  obtain ⟨ha, hb⟩ := IntOp.andi_eq_one.1 h01
  -- the rank-0 result has exactly one index (the empty tuple of coordinates)
  haveI : Subsingleton Cert.Pre_finite_inputs.S_.Idx := ⟨fun a b => funext fun d => d.elim0⟩
  -- an `and` over every axis that is 1 had a 1 at every index, and that 1 is the test `|x| < +inf` there
  refine ⟨fun i => ?_, fun i => ?_⟩
  · exact real_of_abs_lt_top (x0 i) (Host.reduce_andi_all _ _ _ _ _ ha i)
  · exact real_of_abs_lt_top (x2 i) (Host.reduce_andi_all _ _ _ _ _ hb i)

end CrfScore

end
-- ==== Proof.lean ====
/-
  The CRF score: the tiled kernel against the plain reference, over the extended reals.

  Both programs return
      (sum of the first tags' transition rows) + 32 * (masked sum of the step transitions) + (emission part),
  and they compute the two transition numbers by the same host operations. They differ in the emission part. The
  reference adds the first position's scores to the transition rows before summing, and sums the later positions'
  scores each multiplied by the mask. The kernel sets column 0 of the mask to one, and in 32 tiles of 16 batch rows
  sums the tags, multiplies by that weight, sums positions and rows, and accumulates the 32 tile numbers in a 1x1 block.
  A sum of sums splits over addition on the extended reals as it stands; moving the mask factor across the sum over
  the tags needs the scores and the mask to be real numbers, which is what the precondition says. Then both results
  are the same three numbers added in two groupings.

  The three frames are the generated ones (the reference's is its generated run with the result dropped); the ideal
  pass's ledger is empty, so the claim that the idealized kernel is the kernel's sanctioned idealization is `True`.
-/
import proofs.«117368_j14379550507279_1_alg».proof.Defs
import proofs.«117368_j14379550507279_1_alg».proof.Proof.Gen.Kernel
import proofs.«117368_j14379550507279_1_alg».proof.Proof.Gen.Kernel.Skeleton
import proofs.«117368_j14379550507279_1_alg».proof.Proof.Gen.Kernel.Launch
import proofs.«117368_j14379550507279_1_alg».proof.Proof.Gen.Kernel.Points
import proofs.«117368_j14379550507279_1_alg».proof.Proof.Gen.Kernel.Frame
import proofs.«117368_j14379550507279_1_alg».proof.Proof.Gen.KernelIdeal
import proofs.«117368_j14379550507279_1_alg».proof.Proof.Gen.KernelIdeal.Skeleton
import proofs.«117368_j14379550507279_1_alg».proof.Proof.Gen.KernelIdeal.Launch
import proofs.«117368_j14379550507279_1_alg».proof.Proof.Gen.KernelIdeal.Points
import proofs.«117368_j14379550507279_1_alg».proof.Proof.Gen.KernelIdeal.Frame
import proofs.«117368_j14379550507279_1_alg».proof.Proof.Gen.ReferenceIdeal
import proofs.«117368_j14379550507279_1_alg».proof.Proof.Gen.ReferenceIdeal.Run
import proofs.«117368_j14379550507279_1_alg».proof.Proof.Gen.ReferenceIdeal.Read
import proofs.«117368_j14379550507279_1_alg».proof.Proof.Gen.Pre_finite_inputs
import proofs.«117368_j14379550507279_1_alg».proof.Proof.KernelScore
import proofs.«117368_j14379550507279_1_alg».proof.Proof.ReferenceScore
import proofs.«117368_j14379550507279_1_alg».proof.Proof.HostSums
import proofs.«117368_j14379550507279_1_alg».proof.Proof.FiniteInputs
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The same four numbers in the kernel's grouping and in the reference's. -/
theorem regroup (a c e0 e1 : EReal) : ((a + e0) + c) + e1 = (a + c) + (e0 + e1) := by
  rw [add_assoc a e0 c, add_comm e0 c, ← add_assoc a c e0, add_assoc (a + c) e0 e1]

/-- The two results as extended reals: the transition-row sum `∑ G` with or without the first position's scores inside
    it, the shared masked-transition number `C`, and the emission part split as first position plus later positions. -/
theorem three_numbers (G : (⟨2, ![512, 32]⟩ : Shape).Idx → EReal) (C : EReal) (e0 : Fin 512 → Fin 32 → EReal) (E1 : EReal) :
    ((Ideal.ofBits .f32 0x00000000#32 + ∑ b : Fin 512, ∑ k : Fin 32, (G (ix2 b k) + e0 b k)) + C)
        + (Ideal.ofBits .f32 0x00000000#32 + E1)
      = ((Ideal.ofBits .f32 0x00000000#32 + ∑ j, G j) + C) + ((∑ b : Fin 512, ∑ k : Fin 32, e0 b k) + E1) := by
  rw [Ideal.ofBits_zero_f32, zero_add, zero_add, zero_add, sum_idx2]
  simp only [Finset.sum_add_distrib]
  exact regroup _ _ _ _

/-- At the ideal instance, from memories that agree on the arguments and satisfy the precondition, both programs end
    with the same scalar. -/
theorem algebraic : Cert.algebraic_KernelIdeal_ReferenceIdeal := by
  intro m ρ m' ρ' hpre hagree
  refine ⟨_, Cert.KernelIdeal.Total.run_total (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨he, hm⟩ := CrfScore.real_of_finite _ _ _ _ (hpre c)
  refine (Cert.ReferenceIdeal.Read.val_main_v40_eq _ _ _ _).trans ?_
  rw [(hagree c).1, (hagree c).2.1, (hagree c).2.2.1, (hagree c).2.2.2]
  funext i
  rw [eq_ix0 i]
  refine (Cert.ReferenceIdeal.Score.reference_value _ _ _ _).trans ?_
  refine Eq.trans ?_ (congrArg₂ (· + ·)
    (congrArg₂ (· + ·) (Cert.Proof.HostSums.row_sum m c).symm (congrFun (Cert.Proof.HostSums.step_sum m c) ix0).symm)
    ((Cert.KernelIdeal.KScore.scalar_apply _).trans (Cert.KernelIdeal.KScore.kernel_total m c he hm)).symm)
  exact three_numbers
    (Cert.ReferenceIdeal.Read.val_main_v8 (F := Ideal) (Cert.Proof.HostSums.tagsArr m c) (Cert.Proof.HostSums.transArr m c))
    _ (fun b k => Cert.KernelIdeal.KScore.emis m c (ix3 b (0 : Fin 2048) k)) _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
